-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 60
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S1x800000, .i32⟩
  | .hbm, ⟨51, _⟩ => ⟨S800000, .i32⟩
  | .hbm, ⟨52, _⟩ => ⟨S1x800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000x1, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x1, .f32⟩
  | .hbm, ⟨109, _⟩ => ⟨S50000x1, .f32⟩
  | .hbm, ⟨110, _⟩ => ⟨S50000x1, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics of the two-layer mean-aggregation encoder, entry by entry, on the extended reals.

  One SAGE layer sends a node's aggregated neighbour features `a` and its own features `h` (128 channels each) to
  `max (⟨a, Wl j⟩ + b j + ⟨h, Wr j⟩) 0` in output channel `j`: two inner products against ROW `j` of each weight
  matrix (the programs multiply by the transposes), the bias between them, the rectifier last.  The layer norm sends
  a row `y` to `((y j - μ) · rsqrt (σ² + ε)) · w j + β j` with `μ = (Σ y) / 128` and `σ² = (Σ (y - μ)²) / 128`.
  Both are stated once over plain rows and once over the 50000 × 128 node arrays.

  The neighbour mean is the one place where the two programs differ: one multiplies the neighbour sum by
  `1 / max(cnt, 1)`, the other divides it by `max(cnt, 1)`.  Off zero the quotient of extended reals IS the product
  with the inverse, and `max(cnt, 1)` is at least one, so the two agree for every count, finite or not
  (`mul_one_div_max`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: 50000 nodes by 128 channels. -/
abbrev Nodes : Shape := ⟨2, ![50000, 128]⟩
/-- A weight matrix, output channel by input channel. -/
abbrev Wts : Shape := ⟨2, ![128, 128]⟩
/-- A per-channel vector (bias, norm scale, norm shift). -/
abbrev Chan : Shape := ⟨1, ![128]⟩

/-! ## One entry -/

/-- One output channel of a SAGE layer at one node: `a` the node's neighbour mean, `h` its own features, `wl` and
    `wr` the channel's rows of the two weight matrices, `b` its bias. -/
def conv (a h wl wr : Fin 128 → EReal) (b : EReal) : EReal :=
  max ((∑ k : Fin 128, a k * wl k) + b + ∑ k : Fin 128, h k * wr k) 0

/-- The mean of a row of 128 (the divisor is the word of 128.0, as both programs spell it). -/
def rowMean (y : Fin 128 → EReal) : EReal :=
  Ideal.div (∑ k : Fin 128, y k) (Ideal.ofBits .f32 0x43000000#32)

/-- One channel of the layer norm of a row `y`: centred, scaled by `rsqrt` of the variance plus the programs'
    common `ε` word, then the affine map `· w + β`. -/
def norm (y : Fin 128 → EReal) (w β : EReal) (j : Fin 128) : EReal :=
  (y j - rowMean y) * Ideal.rsqrt (rowMean (fun k => (y k - rowMean y) * (y k - rowMean y)) + Ideal.ofBits .f32 0x3727C5AC#32) * w + β

/-! ## Whole arrays -/

/-- A SAGE layer on the node arrays, at node `r` and channel `j`. -/
def layerAt (A H : FVec Ideal Nodes .f32) (Wl : FVec Ideal Wts .f32) (B : FVec Ideal Chan .f32) (Wr : FVec Ideal Wts .f32)
    (r : Fin 50000) (j : Fin 128) : EReal :=
  conv (fun k => A (ix2 r k)) (fun k => H (ix2 r k)) (fun k => Wl (ix2 j k)) (fun k => Wr (ix2 j k)) (B (ix1 j))

/-- A SAGE layer on the node arrays. -/
def layer (A H : FVec Ideal Nodes .f32) (Wl : FVec Ideal Wts .f32) (B : FVec Ideal Chan .f32) (Wr : FVec Ideal Wts .f32) :
    FVec Ideal Nodes .f32 :=
  fun i => layerAt A H Wl B Wr ⟨(i 0).val, idx2_lt0 i⟩ ⟨(i 1).val, idx2_lt1 i⟩

theorem layer_apply (A H : FVec Ideal Nodes .f32) (Wl : FVec Ideal Wts .f32) (B : FVec Ideal Chan .f32) (Wr : FVec Ideal Wts .f32)
    (r : Fin 50000) (j : Fin 128) : layer A H Wl B Wr (ix2 r j) = layerAt A H Wl B Wr r j := rfl

/-- The layer norm on the node arrays, at node `r` and channel `j`. -/
def lnormAt (Y : FVec Ideal Nodes .f32) (W β : FVec Ideal Chan .f32) (r : Fin 50000) (j : Fin 128) : EReal :=
  norm (fun k => Y (ix2 r k)) (W (ix1 j)) (β (ix1 j)) j

/-- The layer norm on the node arrays. -/
def lnorm (Y : FVec Ideal Nodes .f32) (W β : FVec Ideal Chan .f32) : FVec Ideal Nodes .f32 :=
  fun i => lnormAt Y W β ⟨(i 0).val, idx2_lt0 i⟩ ⟨(i 1).val, idx2_lt1 i⟩

theorem lnorm_apply (Y : FVec Ideal Nodes .f32) (W β : FVec Ideal Chan .f32) (r : Fin 50000) (j : Fin 128) :
    lnorm Y W β (ix2 r j) = lnormAt Y W β r j := rfl

/-! ## The neighbour mean: a product with the reciprocal is the quotient -/

/-- The word of 1.0 denotes one. -/
theorem ofBits_one : Ideal.ofBits .f32 0x3F800000#32 = 1 := by
  simp [Ideal.ofBits, Ideal.ieee, -EReal.coe_mul]; norm_num

/-- Off zero, multiplying by the reciprocal is dividing, on every extended real. -/
theorem mul_one_div (a c : EReal) (hc : c ≠ 0) : a * Ideal.div 1 c = Ideal.div a c := by
  rw [Ideal.div, if_neg hc, Ideal.div, if_neg hc, one_mul]

/-- The divisor of a neighbour mean, `max cnt 1`, is never zero. -/
theorem max_one_ne_zero (x : EReal) : max x (Ideal.ofBits .f32 0x3F800000#32) ≠ 0 := by
  rw [ofBits_one]
  exact ne_of_gt (lt_of_lt_of_le zero_lt_one (le_max_right x 1))

/-- The neighbour mean both ways: the sum times the reciprocal of `max cnt 1` is the sum over `max cnt 1`. -/
theorem mul_one_div_max (a cnt : EReal) :
    a * Ideal.div (Ideal.ofBits .f32 0x3F800000#32) (max cnt (Ideal.ofBits .f32 0x3F800000#32))
      = Ideal.div a (max cnt (Ideal.ofBits .f32 0x3F800000#32)) := by
  have h := mul_one_div a _ (max_one_ne_zero cnt)
  rw [ofBits_one] at h ⊢
  exact h

end Cert.Sage

end
-- ==== Proof.HostValue.lean ====
/-
  What the host operations around the two pallas_calls compute, named once.

  From the edge list `e` (row 0 the sources, row 1 the destinations) the program forms, for node features `h`:
  the NEIGHBOUR SUM `Σ_{edges into i} h[src]` (a gather of the source rows, negative sources wrapped by 50000,
  scatter-added at the destinations into zeros), the DEGREE (ones scatter-added at the destinations), the DIVISOR
  `max degree 1`, its RECIPROCAL `1 / max degree 1`, and the neighbour MEAN as the product of the sum with the
  reciprocal broadcast along the channels.  The first call reads the mean of the input features; the second reads the
  mean of the first call's output, formed by the same chain after it.  None of the chain is opened here: the lemmas
  below only say which buffer holds which of these terms when each call is entered.
-/
import proofs.«132489_j89103391523116_1_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-! ## The chain -/

/-- Row 0 of the edge list: each edge's source node. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: each edge's destination node. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The sources with a negative index wrapped around by the number of nodes. -/
def srcWrapped (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The neighbour sum: the source rows of `h` scatter-added at the destinations `d`. -/
def neighbourSum (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0 (srcWrapped s)))

/-- The reciprocal of `max degree 1`, the degree being ones scatter-added at the destinations `d`. -/
def recip (d : (⟨S800000, .i32⟩ : BufTy).Contents (Elt F)) : (⟨S50000, .f32⟩ : BufTy).Contents (Elt F) :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))

/-- The neighbour mean as this program forms it: the neighbour sum times the reciprocal `q`, broadcast along the channels. -/
def meanWith (h : (⟨S50000x128, .f32⟩ : BufTy).Contents (Elt F)) (s d : (⟨S800000, .i32⟩ : BufTy).Contents (Elt F))
    (q : (⟨S50000, .f32⟩ : BufTy).Contents (Elt F)) : (⟨S50000x128, .f32⟩ : BufTy).Contents (Elt F) :=
  mulf (neighbourSum h s d)
    (broadcastInDim S50000x128 ![0, 1] bcast_S50000x1_S50000x128_0_1 (broadcastInDim S50000x1 ![0] bcast_S50000_S50000x1_0 q))

/-! ## Before the first call -/

variable (m : (ℓ : Loc nD τ sig) → Buf (Elt F) ℓ) (ρ : Dev nD → PrngReg)

theorem entry0_src (c : Dev nD) : W1 m ρ c (Proc.devRef .tc main_v1) = srcOf (m ((c : Thread nD τ).loc main_arg1)) := by
  show StableHlo.after hostOps0 (W0 m ρ c) (Proc.devRef .tc main_v1) = _
  after_results
  rfl

theorem entry0_dst (c : Dev nD) : W1 m ρ c (Proc.devRef .tc main_v3) = dstOf (m ((c : Thread nD τ).loc main_arg1)) := by
  show StableHlo.after hostOps0 (W0 m ρ c) (Proc.devRef .tc main_v3) = _
  after_results
  rfl

theorem entry0_recip (c : Dev nD) :
    W1 m ρ c (Proc.devRef .tc main_v11) = recip (dstOf (m ((c : Thread nD τ).loc main_arg1))) := by
  show StableHlo.after hostOps0 (W0 m ρ c) (Proc.devRef .tc main_v11) = _
  after_results
  rfl

set_option maxHeartbeats 4000000 in
/-- The first call's first operand is the neighbour mean of the input features. -/
theorem entry0_mean (c : Dev nD) :
    V1 m ρ c main_v24 = meanWith (m ((c : Thread nD τ).loc main_arg0)) (srcOf (m ((c : Thread nD τ).loc main_arg1)))
      (dstOf (m ((c : Thread nD τ).loc main_arg1))) (recip (dstOf (m ((c : Thread nD τ).loc main_arg1)))) := by
  show StableHlo.after hostOps0 (W0 m ρ c) (Proc.devRef .tc main_v24) = _
  after_results_simp
  rfl

/-! ## Between the calls -/

/-- The first call's output array, as the buffers hold it after the call: what its ten write-backs leave. -/
theorem exit0_hidden (c : Dev nD) : V2 m ρ c main_v25 = (dat0 (V1 m ρ) c).arrAt 5 cfg0.N := W2_arr m ρ c 5

/-- No host operation between the calls writes the first call's output: the second call reads it as the first left it. -/
theorem entry1_hidden (c : Dev nD) : V3 m ρ c main_v25 = V2 m ρ c main_v25 := by
  show StableHlo.after hostOps1 (W2 m ρ c) (Proc.devRef .tc main_v25) = _
  after_results

set_option maxHeartbeats 4000000 in
/-- The second call's first operand is the neighbour mean of the first call's output, by the same chain: the edge
    endpoints and the reciprocal are the buffers the first stretch filled, which the first call does not touch. -/
theorem entry1_mean (c : Dev nD) :
    V3 m ρ c main_v38 = meanWith (V2 m ρ c main_v25) (srcOf (m ((c : Thread nD τ).loc main_arg1)))
      (dstOf (m ((c : Thread nD τ).loc main_arg1))) (recip (dstOf (m ((c : Thread nD τ).loc main_arg1)))) := by
  show StableHlo.after hostOps1 (W2 m ρ c) (Proc.devRef .tc main_v38) = _
  after_results_simp
  rw [W2_of_ne m ρ c main_v3 (by decide), W2_of_ne m ρ c main_v1 (by decide), W2_of_ne m ρ c main_v11 (by decide),
    entry0_src, entry0_dst, entry0_recip]
  rfl

end Cert.KernelIdeal.HostValue

end
-- ==== Proof.HostArgs.lean ====
/-
  The arguments as the two pallas_calls find them: no host operation writes an argument array and the first call
  writes none that the second reads as an argument, so each is still the launch contents when its call is entered.
-/
import proofs.«132489_j89103391523116_1_alg».proof.Proof.Gen.KernelIdeal.Frame
import Idealize.ShloMosaic.Lib.StableHlo.Run

set_option maxRecDepth 16384

noncomputable section

namespace Cert.KernelIdeal.HostArgs

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first call -/

theorem first_x (c : Dev nD) : V1 m ρ c main_arg0 = m ((c : Thread nD τ).loc main_arg0) := by
  show StableHlo.after hostOps0 (W0 m ρ c) (Proc.devRef .tc main_arg0) = _
  after_results

theorem first_wl (c : Dev nD) : V1 m ρ c main_arg2 = m ((c : Thread nD τ).loc main_arg2) := by
  show StableHlo.after hostOps0 (W0 m ρ c) (Proc.devRef .tc main_arg2) = _
  after_results

theorem first_b (c : Dev nD) : V1 m ρ c main_arg3 = m ((c : Thread nD τ).loc main_arg3) := by
  show StableHlo.after hostOps0 (W0 m ρ c) (Proc.devRef .tc main_arg3) = _
  after_results

theorem first_wr (c : Dev nD) : V1 m ρ c main_arg4 = m ((c : Thread nD τ).loc main_arg4) := by
  show StableHlo.after hostOps0 (W0 m ρ c) (Proc.devRef .tc main_arg4) = _
  after_results

/-! ## At the second call -/

theorem second_wl (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

theorem second_b (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results

theorem second_wr (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

theorem second_scale (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

theorem second_shift (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

end Cert.KernelIdeal.HostArgs

end
-- ==== Proof.KernelValue.lean ====
/-
  The idealized kernel program's result as ONE function of its arguments.

  `encoder` is the two-layer encoder as this program computes it: the neighbour mean of the input features (sum times
  reciprocal), a SAGE layer, the neighbour mean of that layer's output by the same chain, a second SAGE layer, the
  layer norm.  `final` walks the result buffer back through @main's four segments: the second call's output array is
  the layer norm of the second layer of what that call finds; what it finds is the mean of the first call's output and
  that output itself; the first call's output is the first layer of what IT finds, the mean of the input features and
  the arguments as launched.  The two facts about the calls' output arrays are taken as hypotheses here.
-/
import proofs.«132489_j89103391523116_1_alg».proof.Proof.Spec
import proofs.«132489_j89103391523116_1_alg».proof.Proof.HostValue
import proofs.«132489_j89103391523116_1_alg».proof.Proof.HostArgs

set_option maxRecDepth 16384

noncomputable section

namespace Cert.KernelIdeal.Encoder

open Cert.KernelIdeal Cert.KernelIdeal.Gen Cert.KernelIdeal.HostValue Cert.KernelIdeal.HostArgs
open Idealize.ShloMosaic Idealize.ShloMosaic.TcCoe Idealize.SL.Sem

/-- The encoder on the argument arrays: features `x`, edge list `e`, the two layers' weights and biases, the norm's
    scale and shift. -/
def encoder (x : (⟨S50000x128, .f32⟩ : BufTy).Contents (Elt Ideal)) (e : (⟨S2x800000, .i32⟩ : BufTy).Contents (Elt Ideal))
    (wl1 : (⟨S128x128, .f32⟩ : BufTy).Contents (Elt Ideal)) (b1 : (⟨S128, .f32⟩ : BufTy).Contents (Elt Ideal))
    (wr1 wl2 : (⟨S128x128, .f32⟩ : BufTy).Contents (Elt Ideal)) (b2 : (⟨S128, .f32⟩ : BufTy).Contents (Elt Ideal))
    (wr2 : (⟨S128x128, .f32⟩ : BufTy).Contents (Elt Ideal)) (w β : (⟨S128, .f32⟩ : BufTy).Contents (Elt Ideal)) :
    (⟨S50000x128, .f32⟩ : BufTy).Contents (Elt Ideal) :=
  Cert.Sage.lnorm
    (Cert.Sage.layer
      (meanWith (Cert.Sage.layer (meanWith x (srcOf e) (dstOf e) (recip (dstOf e))) x wl1 b1 wr1) (srcOf e) (dstOf e) (recip (dstOf e)))
      (Cert.Sage.layer (meanWith x (srcOf e) (dstOf e) (recip (dstOf e))) x wl1 b1 wr1) wl2 b2 wr2)
    w β

variable (m : (ℓ : Loc nD τ sig) → Buf (Elt Ideal) ℓ) (ρ : Dev nD → PrngReg)

/-- The result buffer after the second call holds the encoder of the arguments as launched. -/
theorem final (c : Dev nD)
    (first : ∀ (V : (c : Dev nD) → (b : Ref sig .tc) → Buf (Elt Ideal) ((c : Thread nD τ).loc b)) (c : Dev nD),
      (dat0 (F := Ideal) V c).arrAt 5 cfg0.N
        = Cert.Sage.layer (V c main_v24) (V c main_arg0) (V c main_arg2) (V c main_arg3) (V c main_arg4))
    (second : ∀ (V : (c : Dev nD) → (b : Ref sig .tc) → Buf (Elt Ideal) ((c : Thread nD τ).loc b)) (c : Dev nD),
      (dat1 (F := Ideal) V c).arrAt 7 cfg1.N
        = Cert.Sage.lnorm (Cert.Sage.layer (V c main_v38) (V c main_v25) (V c main_arg5) (V c main_arg6) (V c main_arg7))
            (V c main_arg8) (V c main_arg9)) :
    W4 m ρ c (Proc.devRef .tc main_v39)
      = encoder (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W4_arr m ρ c 7).trans ?_
  rw [second (V3 m ρ) c, entry1_mean m ρ c, entry1_hidden m ρ c, exit0_hidden m ρ c, first (V1 m ρ) c, entry0_mean m ρ c,
    first_x m ρ c, first_wl m ρ c, first_b m ρ c, first_wr m ρ c,
    second_wl m ρ c, second_b m ρ c, second_wr m ρ c, second_scale m ρ c, second_shift m ρ c]
  rfl

end Cert.KernelIdeal.Encoder

end
-- ==== Proof.MeanBridge.lean ====
/-
  The neighbour mean, both ways.

  The idealized kernel program multiplies the neighbour sum by the reciprocal `1 / max degree 1`; the reference
  divides the neighbour sum by `max degree 1`.  At an entry (node r, channel j) both read the node's divisor through
  the same two broadcasts, and on the extended reals a product with the reciprocal of a nonzero number IS the
  quotient, whatever the number (`Cert.Sage.mul_one_div_max`); the divisor is at least one.  So the two means are the
  same array, for any features and any edge list, with nothing assumed about the degree.  The neighbour sum and the
  degree are the same scatter-adds of the same gathers on both sides and are never opened.
-/
import proofs.«132489_j89103391523116_1_alg».proof.Proof.Spec
import proofs.«132489_j89103391523116_1_alg».proof.Proof.HostValue
import proofs.«132489_j89103391523116_1_alg».proof.Proof.Gen.ReferenceIdeal.Read

set_option maxRecDepth 16384

noncomputable section

namespace Cert.KernelIdeal.HostValue

open Cert.KernelIdeal Cert.KernelIdeal.Gen Idealize.ShloMosaic Idealize.ShloMosaic.TcCoe Idealize.ShloMosaic.ValueIdx

/-- The divisor of the neighbour mean, `max degree 1`, the degree being ones scatter-added at the destinations `d`. -/
def divisor {F : FTy → Type} [FloatOps F] (d : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32))

/-- The node of an entry, as an index of a per-node vector. -/
abbrev nodeOf (i : S50000x128.Idx) : S50000.Idx := fun a => match a with
  | ⟨0, _⟩ => ⟨(i 0).val, (i 0).isLt⟩

/-- The node of an entry, as an index of the per-node column. -/
abbrev columnOf (i : S50000x128.Idx) : S50000x1.Idx := fun a => match a with
  | ⟨0, _⟩ => ⟨(i 0).val, (i 0).isLt⟩
  | ⟨1, _⟩ => ⟨0, Nat.one_pos⟩

/-- A per-node vector broadcast along the channels, read at an entry, is the node's value. -/
theorem rows_apply (y : (⟨S50000, .f32⟩ : BufTy).Contents (Elt Ideal)) (i : S50000x128.Idx) :
    broadcastInDim S50000x128 ![0, 1] bcast_S50000x1_S50000x128_0_1 (broadcastInDim S50000x1 ![0] bcast_S50000_S50000x1_0 y) i
      = y (nodeOf i) := by
  refine (broadcastInDim_apply _ bcast_S50000x1_S50000x128_0_1 _ i (columnOf i)
    (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans ?_
  exact broadcastInDim_apply _ bcast_S50000_S50000x1_0 y (columnOf i) (nodeOf i) (fun a => match a with
    | ⟨0, _⟩ => by show (i 0).val = if (50000 : Nat) = 1 then 0 else (i 0).val; rw [if_neg (by decide)])

/-- The splat of the word of 1.0 over the nodes, read at a node. -/
theorem ones_apply (k : S50000.Idx) :
    broadcastInDim S50000 ![] bcast_S_S50000 (constant (F := Ideal) S_ .f32 0x3F800000#32) k = Ideal.ofBits .f32 0x3F800000#32 :=
  broadcastInDim_apply _ bcast_S_S50000 _ k (fun a => a.elim0) (fun a => a.elim0)

/-- A per-node vector laid along the channels: the two broadcasts both programs use. -/
abbrev alongChannels (y : FVec Ideal S50000 .f32) : FVec Ideal S50000x128 .f32 :=
  broadcastInDim S50000x128 ![0, 1] bcast_S50000x1_S50000x128_0_1 (broadcastInDim S50000x1 ![0] bcast_S50000_S50000x1_0 y)

/-- The splat of the word of 1.0 over the nodes. -/
abbrev onesOverNodes : FVec Ideal S50000 .f32 :=
  broadcastInDim S50000 ![] bcast_S_S50000 (constant (F := Ideal) S_ .f32 0x3F800000#32)

/-- For ANY array `A` and ANY count vector `cnt`: `A` times the reciprocal of `max cnt 1` along the channels is `A`
    over `max cnt 1` along the channels, entry by entry. -/
theorem mul_recip_eq_div (A : FVec Ideal S50000x128 .f32) (cnt : FVec Ideal S50000 .f32) :
    mulf (F := Ideal) A (alongChannels (Host.divf (F := Ideal) onesOverNodes (maximumf (F := Ideal) cnt onesOverNodes)))
      = Host.divf (F := Ideal) A (alongChannels (maximumf (F := Ideal) cnt onesOverNodes)) := by
  funext i
  have hq : alongChannels (Host.divf (F := Ideal) onesOverNodes (maximumf (F := Ideal) cnt onesOverNodes)) i
      = Host.divf (F := Ideal) onesOverNodes (maximumf (F := Ideal) cnt onesOverNodes) (nodeOf i) := rows_apply _ i
  have hc : alongChannels (maximumf (F := Ideal) cnt onesOverNodes) i = maximumf (F := Ideal) cnt onesOverNodes (nodeOf i) :=
    rows_apply _ i
  show (A i : EReal) * (alongChannels (Host.divf (F := Ideal) onesOverNodes (maximumf (F := Ideal) cnt onesOverNodes)) i : EReal)
    = Ideal.div (A i) (alongChannels (maximumf (F := Ideal) cnt onesOverNodes) i)
  rw [hq, hc]
  show (A i : EReal) * Ideal.div (onesOverNodes (nodeOf i)) (max (cnt (nodeOf i)) (onesOverNodes (nodeOf i)))
    = Ideal.div (A i) (max (cnt (nodeOf i)) (onesOverNodes (nodeOf i)))
  have ho : onesOverNodes (nodeOf i) = Ideal.ofBits .f32 0x3F800000#32 := ones_apply (nodeOf i)
  rw [ho]
  exact Cert.Sage.mul_one_div_max _ _

/-- The mean as a product with the reciprocal is the mean as a quotient by the divisor. -/
theorem mean_eq_div (h : (⟨S50000x128, .f32⟩ : BufTy).Contents (Elt Ideal)) (s d : (⟨S800000, .i32⟩ : BufTy).Contents (Elt Ideal)) :
    meanWith h s d (recip d) = Host.divf (F := Ideal) (φ := .f32) (neighbourSum h s d) (alongChannels (divisor d)) :=
  mul_recip_eq_div (neighbourSum h s d) _

end Cert.KernelIdeal.HostValue

namespace Cert.MeanBridge

open Idealize.ShloMosaic Idealize.ShloMosaic.TcCoe
open Cert.KernelIdeal.HostValue

/-- The reference's first neighbour mean is this program's, of the same features and edges. -/
theorem first_mean (x0 : (⟨Cert.ReferenceIdeal.S50000x128, .f32⟩ : BufTy).Contents (Elt Ideal))
    (x1 : (⟨Cert.ReferenceIdeal.S2x800000, .i32⟩ : BufTy).Contents (Elt Ideal)) :
    Cert.ReferenceIdeal.Read.val_main_v22 (F := Ideal) x0 x1 = meanWith x0 (srcOf x1) (dstOf x1) (recip (dstOf x1)) :=
  Eq.trans rfl (mean_eq_div x0 (srcOf x1) (dstOf x1)).symm

/-- The reference's second neighbour mean is this program's, of the first layer's output and the same edges. -/
theorem second_mean (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) :
    Cert.ReferenceIdeal.Read.val_main_v54 (F := Ideal) x0 x1 x2 x3 x4
      = meanWith (Cert.ReferenceIdeal.Read.val_main_v31 (F := Ideal) x0 x1 x2 x3 x4) (srcOf x1) (dstOf x1) (recip (dstOf x1)) :=
  Eq.trans rfl (mean_eq_div (Cert.ReferenceIdeal.Read.val_main_v31 (F := Ideal) x0 x1 x2 x3 x4) (srcOf x1) (dstOf x1)).symm

end Cert.MeanBridge

end
-- ==== Proof.RefValue.lean ====
/-
  The reference's result is the encoder of its arguments.

  Stage by stage the reference is: the neighbour mean of the features (a quotient), a SAGE layer, the neighbour mean
  of that layer's output, a second SAGE layer, the layer norm.  The two quotient means are the product means of the
  idealized kernel program (the mean bridge), so the reference's result is that program's `encoder` of the same arrays.
  The three stage equations are taken as hypotheses here.
-/
import proofs.«132489_j89103391523116_1_alg».proof.Proof.KernelValue
import proofs.«132489_j89103391523116_1_alg».proof.Proof.MeanBridge

set_option maxRecDepth 16384

noncomputable section

namespace Cert.ReferenceIdeal.Encoder

open Cert.ReferenceIdeal Cert.ReferenceIdeal.Read Idealize.ShloMosaic Idealize.ShloMosaic.TcCoe

variable (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 : (⟨S128, .f32⟩ : BufTy).Contents (Elt Ideal))

/-- The reference's result stage is the encoder, given that its three computed stages are the specification's
    layers and norm of the stages before them. -/
theorem result_is_encoder
    (hidden : val_main_v31 (F := Ideal) x0 x1 x2 x3 x4 = Cert.Sage.layer (val_main_v22 (F := Ideal) x0 x1) x0 x2 x3 x4)
    (second : val_main_v63 (F := Ideal) x0 x1 x2 x3 x4 x5 x6 x7
      = Cert.Sage.layer (val_main_v54 (F := Ideal) x0 x1 x2 x3 x4) (val_main_v31 (F := Ideal) x0 x1 x2 x3 x4) x5 x6 x7)
    (result : val_main_v87 (F := Ideal) x0 x1 x2 x3 x4 x5 x6 x7 x8 x9
      = Cert.Sage.lnorm (val_main_v63 (F := Ideal) x0 x1 x2 x3 x4 x5 x6 x7) x8 x9) :
    val_main_v87 (F := Ideal) x0 x1 x2 x3 x4 x5 x6 x7 x8 x9
      = Cert.KernelIdeal.Encoder.encoder x0 x1 x2 x3 x4 x5 x6 x7 x8 x9 := by
  rw [result, second, Cert.MeanBridge.second_mean, hidden, Cert.MeanBridge.first_mean]
  rfl

end Cert.ReferenceIdeal.Encoder

end
-- ==== Proof.Region0.lean ====
/-
  The first pallas_call's output array, entry by entry: whatever the TensorCore's buffers hold when the call is
  entered, output window 5 ends holding one SAGE layer of the call's five input arrays. The payload at an entry is the
  layer's output channel over the rows of the loaded blocks; every node block is the same 5000 rows of its array as the
  output block, every weight or bias block its whole array; the ten output blocks tile the 50000 x 128 array.
-/
import proofs.«132489_j89103391523116_1_alg».proof.Proof.Spec
import proofs.«132489_j89103391523116_1_alg».proof.Proof.Gen.KernelIdeal.Frame
import Idealize.ShloMosaic.Lib.Pipeline.Value
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## One entry of the body's payload

The body multiplies a block of 5000 node rows by the TRANSPOSE of a 128 x 128 weight matrix, twice, so entry
`(p, q)` of each product is the inner product of row `p` of the block with ROW `q` of the weights. -/

/-- Output axis 0 of the product is the left operand's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted index. -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row is the contracted index. -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- Output axis 1 of the product is the right operand's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a transposed weight matrix, accumulated into zeros, at entry `(p, q)`: row `p` of the block against
    row `q` of the weights. -/
theorem matmul_transposed_apply {φ₁ φ₂ : FTy} (x : FVec Ideal S5000x128 φ₁) (w : FVec Ideal S128x128 φ₂) (p : Fin 5000) (q : Fin 128) :
    matmul dot_S5000x128_S128x128_S5000x128_1_0_0_1_n_n none x (transpose S128x128 [1, 0] w transposes_S128x128_p1_0_S128x128) (constant S5000x128 .f32 0x00000000#32) (ix2 p q)
      = ∑ k : Fin 128, x (ix2 p k) * w (ix2 q k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er, transpose_ix2_apply]

/-- The payload at entry `(p, q)` is one output channel of the layer: row `p` of the two node blocks against row `q` of
    the two weight matrices, the bias of channel `q` between the two inner products, the rectifier last. -/
theorem payload_apply (x0 x1 : Vec Ideal S5000x128 .f32) (x2 x4 : Vec Ideal S128x128 .f32) (x3 : Vec Ideal S128 .f32)
    (p : Fin 5000) (q : Fin 128) :
    k0_pay1 (F := Ideal) x0 x1 x2 x4 x3 (ix2 p q)
      = Cert.Sage.conv (fun k => x0 (ix2 p k)) (fun k => x1 (ix2 p k)) (fun k => x2 (ix2 q k)) (fun k => x4 (ix2 q k)) (x3 (ix1 q)) := by
  unfold k0_pay1 Cert.Sage.conv
  dsimp only
  rw [maximumf_apply, addf_apply, addf_apply, matmul_transposed_apply, matmul_transposed_apply, broadcastTo_1b_ab_apply, shapeCast_a_1a_apply, broadcast_apply]
  simp only [truncf_apply, shapeCast_self]
  exact congrArg (max _) Ideal.ofBits_zero_f32

/-! ## From the blocks to the array

The grid has ten points. At point `t` the two node windows and the output window hold rows `5000 t … 5000 t + 4999` of
their arrays (block index `(t, 0)`, block size 5000 x 128) and the weight and bias windows hold their whole arrays
(block index 0). -/

theorem zeros2 : (![0, 0] : Fin 2 → Nat) = fun _ => 0 := funext fun a => by fin_cases a <;> rfl
theorem zeros1 : (![0] : Fin 1 → Nat) = fun _ => 0 := funext fun a => by fin_cases a; rfl

/-- The printed index maps, decided once over the grid. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer on node blocks that are rows `r₀ … r₀ + 4999` of the node arrays: entry `(p, q)` of the payload is entry
    `(r₀ + p, q)` of the layer on the whole arrays. -/
theorem payload_rows (A H : FVec Ideal Cert.Sage.Nodes .f32) (Wl : FVec Ideal Cert.Sage.Wts .f32) (B : FVec Ideal Cert.Sage.Chan .f32)
    (Wr : FVec Ideal Cert.Sage.Wts .f32)
    (x0 x1 : Vec Ideal S5000x128 .f32) (x2 x4 : Vec Ideal S128x128 .f32) (x3 : Vec Ideal S128 .f32)
    (r₀ : Nat) (hr : r₀ + 5000 ≤ 50000)
    (h0 : ∀ (p : Fin 5000) (k : Fin 128), x0 (ix2 p k) = A (ix2 ⟨r₀ + p.val, by have := p.isLt; omega⟩ k))
    (h1 : ∀ (p : Fin 5000) (k : Fin 128), x1 (ix2 p k) = H (ix2 ⟨r₀ + p.val, by have := p.isLt; omega⟩ k))
    (h2 : x2 = Wl) (h3 : x3 = B) (h4 : x4 = Wr) (p : Fin 5000) (q : Fin 128) :
    k0_pay1 (F := Ideal) x0 x1 x2 x4 x3 (ix2 p q)
      = Cert.Sage.layer A H Wl B Wr (ix2 ⟨r₀ + p.val, by have := p.isLt; omega⟩ q) := by
  rw [payload_apply, Cert.Sage.layer_apply]
  unfold Cert.Sage.layerAt
  subst h2 h3 h4
  simp only [h0, h1]

/-- WHAT POINT `t` WRITES BACK is block `t` of the layer on the arrays as the call finds them. -/
theorem flushed_eq (c : Dev nD) (t : Fin cfg0.N) :
    (dat0 (F := Ideal) V c).flushed 5 t
      = ((cfg0.win 5).blk t).view.read (Elt Ideal)
          (Cert.Sage.layer (V c main_v24) (V c main_arg0) (V c main_arg2) (V c main_arg3) (V c main_arg4)) := by
  show (cfg0.win 5).cut (grid0.coords t) ((dat0 (F := Ideal) V c).after 5 t) = _
  rw [after0_5]
  unfold out0_5
  rw [View.canon_unit_zero zeros2]
  simp only [View.ld_unit_zero (S := S5000x128) zeros2, View.ld_unit_zero (S := S128x128) zeros2, View.ld_unit_zero (S := S128) zeros1]
  obtain ⟨e00, e01, e10, e11, e20, e21, e30, e40, e41, e50, e51⟩ := index_facts t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  -- where the output's block sits in its array
  have hemb : ((cfg0.win 5).blk t).view.emb (ix2 p q) = (ix2 ⟨5000 * t.val + p.val, by omega⟩ q : S50000x128.Idx) :=
    funext fun a => Fin.ext (by
      match a with
      | ⟨0, _⟩ => show win0_5.index t (0 : Fin 2) * 5000 + 1 * p.val = 5000 * t.val + p.val; omega
      | ⟨1, _⟩ => show win0_5.index t (1 : Fin 2) * 128 + 1 * q.val = q.val; omega)
  -- the two node blocks are the same rows of their arrays
  have h0 : ∀ (p : Fin 5000) (k : Fin 128), (iblk0 V c 0 t : Vec Ideal S5000x128 .f32) (ix2 p k)
      = (V c main_v24 : FVec Ideal Cert.Sage.Nodes .f32) (ix2 ⟨5000 * t.val + p.val, by have := p.isLt; omega⟩ k) := fun p k => by
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  have h1 : ∀ (p : Fin 5000) (k : Fin 128), (iblk0 V c 1 t : Vec Ideal S5000x128 .f32) (ix2 p k)
      = (V c main_arg0 : FVec Ideal Cert.Sage.Nodes .f32) (ix2 ⟨5000 * t.val + p.val, by have := p.isLt; omega⟩ k) := fun p k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = 5000 * t.val + p.val; omega
    | ⟨1, _⟩ => show win0_1.index t (1 : Fin 2) * 128 + 1 * k.val = k.val; omega
  -- the weight and bias blocks are their whole arrays
  have h2 : (iblk0 V c 2 t : Vec Ideal S128x128 .f32) = (V c main_arg2 : FVec Ideal Cert.Sage.Wts .f32) := funext fun y => by
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : (iblk0 V c 3 t : Vec Ideal S128 .f32) = (V c main_arg3 : FVec Ideal Cert.Sage.Chan .f32) := funext fun y => by
    show V c main_arg3 (((cfg0.win 3).blk t).view.emb y) = V c main_arg3 y
    refine congrArg (V c main_arg3) (funext fun a => Fin.ext ?_)
    match a with
    | ⟨0, _⟩ => show win0_3.index t (0 : Fin 1) * 128 + 1 * (y 0).val = (y 0).val; omega
  have h4 : (iblk0 V c 4 t : Vec Ideal S128x128 .f32) = (V c main_arg4 : FVec Ideal Cert.Sage.Wts .f32) := funext fun y => by
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  show k0_pay1 (F := Ideal) (iblk0 V c 0 t) (iblk0 V c 1 t) (iblk0 V c 2 t) (iblk0 V c 4 t) (iblk0 V c 3 t) (ix2 p q)
    = Cert.Sage.layer (V c main_v24) (V c main_arg0) (V c main_arg2) (V c main_arg3) (V c main_arg4) (((cfg0.win 5).blk t).view.emb (ix2 p q))
  rw [hemb]
  exact payload_rows (V c main_v24) (V c main_arg0) (V c main_arg2) (V c main_arg3) (V c main_arg4)
    (iblk0 V c 0 t) (iblk0 V c 1 t) (iblk0 V c 2 t) (iblk0 V c 4 t) (iblk0 V c 3 t) (5000 * t.val) (by omega) h0 h1 h2 h3 h4 p q

/-- An index of the output array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The ten blocks tile the output: row `r` lies in the block of point `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, e50, e51⟩ := index_facts t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY output window 5 ends holding: the layer on the call's five input arrays as it finds them. -/
theorem arr_final (c : Dev nD) :
    (dat0 (F := Ideal) V c).arrAt 5 cfg0.N
      = Cert.Sage.layer (V c main_v24) (V c main_arg0) (V c main_arg2) (V c main_arg3) (V c main_arg4) :=
  (dat0 (F := Ideal) V c).arrAt_eq_of_cover 5 _ (fun t _ => flushed_eq V c t) covered

end Cert.KernelIdeal.Region0

end
-- ==== Proof.Region1.lean ====
/-
  The second pallas_call's output array, for any contents of the buffers at its entry.

  The grid has ten points. At point `t` the two node windows and the output window hold rows `5000 t … 5000 t + 4999` of
  their 50000 × 128 arrays (block `(t, 0)` of size 5000 × 128); the two weight windows, the bias window and the two
  norm-parameter windows hold their whole arrays. The body stores one piece, the whole block: at `(p, j)` the layer norm,
  in channel `j`, of row `p` of `max (a · Wlᵀ + b + h · Wrᵀ) 0`. A row of the block depends only on the same row of the
  two node blocks, so the ten written blocks are the ten row bands of ONE function of the input arrays, and they tile
  the output.
-/
import proofs.«132489_j89103391523116_1_alg».proof.Proof.Spec
import proofs.«132489_j89103391523116_1_alg».proof.Proof.Gen.KernelIdeal.Frame
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## Layout operations the layer norm's row statistics pass through, read at coordinates -/

/-- A length-`a` vector cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a `[5000, 128]` block into the zero word, at row `p`: the plain sum of the row. -/
theorem rowSum_apply (y : FVec Ideal S5000x128 .f32) (hφ : FKind.Formats .f32)
    (hacc : (0x00000000#32 : BitVec 32) = 0x00000000#32) (p : Fin 5000) :
    multiReduction .add [1] S5000 y 0x00000000#32 reduces_S5000x128_S5000 hφ hacc (ix1 p) = ∑ k : Fin 128, y (ix2 p k) := by
  refine (Ideal.multiReduction_add_single y 0x00000000#32 reduces_S5000x128_S5000 hφ hacc (ix1 p)).trans ?_
  refine Finset.sum_congr rfl fun k _ => congrArg y ?_
  funext a
  match a with
  | ⟨0, _⟩ => rfl
  | ⟨1, _⟩ => rfl

/-! ## The kernel's matrix product, read at coordinates -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128]` block times a `[128, 128]` matrix into the zero splat, at `(p, j)`: row `p` of the block against
    column `j` of the matrix, summed over the 128 contracted channels. -/
theorem matmul_apply_ix2 {φ₁ φ₂ : FTy} (l : FVec Ideal S5000x128 φ₁) (r : FVec Ideal S128x128 φ₂) (p : Fin 5000) (j : Fin 128) :
    matmul dot_S5000x128_S128x128_S5000x128_1_0_0_1_n_n none l r (constant S5000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The body's arithmetic, cut in two: the SAGE layer on a block, then the centring and scaling of its rows -/

/-- The SAGE layer on a block: the neighbour block against the transposed left weights, plus the bias row, plus the
    block itself against the transposed right weights, rectified. -/
def sageBlock (a h : Vec Ideal S5000x128 .f32) (wl wr : Vec Ideal S128x128 .f32) (b : Vec Ideal S128 .f32) :
    FVec Ideal S5000x128 .f32 :=
  maximumf
    (addf
      (addf
        (matmul dot_S5000x128_S128x128_S5000x128_1_0_0_1_n_n none
          (truncf .bf16 (shapeCast S5000x128 a shapeCasts_S5000x128_S5000x128) bitsLt_bf16_f32 : FVec Ideal S5000x128 .bf16)
          (transpose S128x128 [1, 0] (truncf .bf16 wl bitsLt_bf16_f32 : FVec Ideal S128x128 .bf16) transposes_S128x128_p1_0_S128x128)
          (constant S5000x128 .f32 0x00000000#32))
        (broadcastTo S5000x128 (shapeCast S1x128 b shapeCasts_S128_S1x128) broadcasts_S1x128_S5000x128))
      (matmul dot_S5000x128_S128x128_S5000x128_1_0_0_1_n_n none
        (truncf .bf16 (shapeCast S5000x128 h shapeCasts_S5000x128_S5000x128) bitsLt_bf16_f32 : FVec Ideal S5000x128 .bf16)
        (transpose S128x128 [1, 0] (truncf .bf16 wr bitsLt_bf16_f32 : FVec Ideal S128x128 .bf16) transposes_S128x128_p1_0_S128x128)
        (constant S5000x128 .f32 0x00000000#32)))
    (broadcast S5000x128 (Scalar.ofBits (F := Ideal) .f32 0x00000000#32))

/-- The mean of every row of a block, as a column. -/
def rowMeanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits (F := Ideal) .f32 0x43000000#32))

/-- A block with every row centred. -/
def centred (y : FVec Ideal S5000x128 .f32) : FVec Ideal S5000x128 .f32 :=
  subf y (broadcastTo S5000x128 (rowMeanCol y) broadcasts_S5000x1_S5000x128)

/-- The layer norm's centring and scaling of every row of a block. -/
def centreScale (y : FVec Ideal S5000x128 .f32) : FVec Ideal S5000x128 .f32 :=
  mulf (centred y)
    (broadcastTo S5000x128
      (rsqrt (addf (rowMeanCol (mulf (centred y) (centred y))) (broadcast S5000x1 (Scalar.ofBits (F := Ideal) .f32 0x3727C5AC#32))))
      broadcasts_S5000x1_S5000x128)

/-- The payload that carries the rows' statistics is the centring and scaling of the SAGE layer's block. -/
theorem pay2_eq (v0 v3 : Vec Ideal S5000x128 .f32) (v6 v8 : Vec Ideal S128x128 .f32) (v12 : Vec Ideal S128 .f32) :
    k1_pay2 (F := Ideal) v0 v3 v6 v8 v12 = centreScale (sageBlock v0 v3 v6 v8 v12) := rfl

/-- The SAGE layer's block at `(p, j)` is the specification's layer entry of row `p` of the two blocks against rows `j`
    of the two weight matrices. -/
theorem sageBlock_apply (a h : Vec Ideal S5000x128 .f32) (wl wr : Vec Ideal S128x128 .f32) (b : Vec Ideal S128 .f32)
    (p : Fin 5000) (j : Fin 128) :
    sageBlock a h wl wr b (ix2 p j)
      = Cert.Sage.conv (fun k => a (ix2 p k)) (fun k => h (ix2 p k)) (fun k => wl (ix2 j k)) (fun k => wr (ix2 j k)) (b (ix1 j)) := by
  unfold sageBlock Cert.Sage.conv
  rw [maximumf_apply, addf_apply, addf_apply, matmul_apply_ix2, matmul_apply_ix2, broadcastTo_1b_ab_apply, shapeCast_a_1a_apply,
    broadcast_apply]
  have tl : ∀ k : Fin 128, transpose S128x128 [1, 0] (truncf .bf16 wl bitsLt_bf16_f32 : FVec Ideal S128x128 .bf16)
      transposes_S128x128_p1_0_S128x128 (ix2 k j) = wl (ix2 j k) := fun k => transpose_ix2_apply _ _ k j
  have tr : ∀ k : Fin 128, transpose S128x128 [1, 0] (truncf .bf16 wr bitsLt_bf16_f32 : FVec Ideal S128x128 .bf16)
      transposes_S128x128_p1_0_S128x128 (ix2 k j) = wr (ix2 j k) := fun k => transpose_ix2_apply _ _ k j
  simp only [truncf_apply, shapeCast_self, tl, tr]
  rw [show Scalar.ofBits (F := Ideal) .f32 0x00000000#32 = (0 : EReal) from Ideal.ofBits_zero_f32]

/-- The column of row means at row `p` is the specification's mean of row `p`. -/
theorem rowMeanCol_apply (y : FVec Ideal S5000x128 .f32) (p : Fin 5000) (u : Fin 1) :
    rowMeanCol y (ix2 p u) = Cert.Sage.rowMean (fun k => y (ix2 p k)) := by
  unfold rowMeanCol Cert.Sage.rowMean
  rw [divf_apply, shapeCast_a_a1_apply, rowSum_apply, broadcast_apply]
  rfl

/-- A centred block at `(p, j)`: the entry less its row's mean. -/
theorem centred_apply (y : FVec Ideal S5000x128 .f32) (p : Fin 5000) (j : Fin 128) :
    centred y (ix2 p j) = y (ix2 p j) - Cert.Sage.rowMean (fun k => y (ix2 p k)) := by
  unfold centred
  rw [subf_apply, broadcastTo_a1_ab_apply, rowMeanCol_apply]

/-- The centred and scaled block at `(p, j)`: the centred entry times the reciprocal root of the row's variance plus ε. -/
theorem centreScale_apply (y : FVec Ideal S5000x128 .f32) (p : Fin 5000) (j : Fin 128) :
    centreScale y (ix2 p j)
      = (y (ix2 p j) - Cert.Sage.rowMean (fun k => y (ix2 p k)))
        * Ideal.rsqrt (Cert.Sage.rowMean (fun k => (y (ix2 p k) - Cert.Sage.rowMean (fun l => y (ix2 p l)))
            * (y (ix2 p k) - Cert.Sage.rowMean (fun l => y (ix2 p l)))) + Ideal.ofBits .f32 0x3727C5AC#32) := by
  unfold centreScale
  rw [mulf_apply, centred_apply, broadcastTo_a1_ab_apply]
  show _ * Ideal.rsqrt (rowMeanCol (mulf (centred y) (centred y)) (ix2 p (0 : Fin 1)) + Ideal.ofBits .f32 0x3727C5AC#32) = _
  rw [rowMeanCol_apply]
  simp only [mulf_apply, centred_apply]

/-- The stored payload: the scaled block times the norm's weight row plus its shift row. -/
theorem pay1_eq (v38 : FVec Ideal S5000x128 .f32) (v40 : FVec Ideal S1x128 .f32) (v43 : Vec Ideal S128 .f32) :
    k1_pay1 (F := Ideal) v38 v40 v43
      = addf (mulf v38 (broadcastTo S5000x128 v40 broadcasts_S1x128_S5000x128))
          (broadcastTo S5000x128 (shapeCast S1x128 v43 shapeCasts_S128_S1x128) broadcasts_S1x128_S5000x128) := rfl

theorem pay3_eq (v39 : Vec Ideal S128 .f32) : k1_pay3 (F := Ideal) v39 = shapeCast S1x128 v39 shapeCasts_S128_S1x128 := rfl

/-- THE BODY'S STORE AT `(p, j)`: the layer norm of row `p` of the SAGE layer of the blocks, in channel `j`. -/
theorem body_apply (x0 x1 : Vec Ideal S5000x128 .f32) (x2 x4 : Vec Ideal S128x128 .f32) (x3 x5 x6 : Vec Ideal S128 .f32)
    (p : Fin 5000) (j : Fin 128) :
    k1_pay1 (F := Ideal) (k1_pay2 (F := Ideal) x0 x1 x2 x4 x3) (k1_pay3 (F := Ideal) x5) x6 (ix2 p j)
      = Cert.Sage.norm (fun k => Cert.Sage.conv (fun l => x0 (ix2 p l)) (fun l => x1 (ix2 p l)) (fun l => x2 (ix2 k l))
          (fun l => x4 (ix2 k l)) (x3 (ix1 k))) (x5 (ix1 j)) (x6 (ix1 j)) j := by
  rw [pay1_eq, pay3_eq, pay2_eq, addf_apply, mulf_apply, broadcastTo_1b_ab_apply, broadcastTo_1b_ab_apply,
    shapeCast_a_1a_apply, shapeCast_a_1a_apply, centreScale_apply]
  simp only [sageBlock_apply]
  rfl

/-! ## The specification at an array index -/

/-- The specification's array at an index with coordinates `(r, j)`: the layer norm of row `r` of the layer's output. -/
theorem spec_apply (A H : FVec Ideal Cert.Sage.Nodes .f32) (Wl : FVec Ideal Cert.Sage.Wts .f32) (B : FVec Ideal Cert.Sage.Chan .f32)
    (Wr : FVec Ideal Cert.Sage.Wts .f32) (W β : FVec Ideal Cert.Sage.Chan .f32) (i : Cert.Sage.Nodes.Idx) (r : Fin 50000) (j : Fin 128)
    (h0 : (i 0).val = r.val) (h1 : (i 1).val = j.val) :
    Cert.Sage.lnorm (Cert.Sage.layer A H Wl B Wr) W β i
      = Cert.Sage.norm (fun k => Cert.Sage.conv (fun l => A (ix2 r l)) (fun l => H (ix2 r l)) (fun l => Wl (ix2 k l))
          (fun l => Wr (ix2 k l)) (B (ix1 k))) (W (ix1 j)) (β (ix1 j)) j := by
  obtain rfl : i = ix2 r j := by
    funext a
    match a with
    | ⟨0, _⟩ => exact Fin.ext h0
    | ⟨1, _⟩ => exact Fin.ext h1
  rw [Cert.Sage.lnorm_apply]
  unfold Cert.Sage.lnormAt
  simp only [Cert.Sage.layer_apply]
  rfl

/-! ## The grid's index maps, and each input block as rows of its array -/

theorem hz2 : (![0, 0] : Fin 2 → Nat) = fun _ => 0 := funext fun a => by fin_cases a <;> rfl
theorem hz1 : (![0] : Fin 1 → Nat) = fun _ => 0 := funext fun a => by fin_cases a; rfl

theorem points_eq : cfg1.N = 10 := N_1

/-- The printed index maps over the ten grid points: the node windows (the two inputs and the output) sit at block
    `(t, 0)`, every weight, bias and norm-parameter window at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) = t.val ∧ win1_7.index t (1 : Fin 2) = 0 :=
  (by decide +kernel : ∀ t : Fin grid1.N, _)

/-! Each input window's block at point `t`, read at coordinates: a node window's block is rows `5000 t … 5000 t + 4999`
    of its array; a weight, bias or norm-parameter window's block is its whole array. -/

theorem iblk_0 (c : Dev nD) (t : Fin cfg1.N) (p : Fin 5000) (l : Fin 128) (r : Fin 50000) (hr : r.val = 5000 * t.val + p.val) :
    (iblk1 (F := Ideal) V c 0 t : Vec Ideal S5000x128 .f32) (ix2 p l) = (V c main_v38 : S50000x128.Idx → EReal) (ix2 r l) := by
  have e0 : win1_0.index t (0 : Fin 2) = t.val := (idx_facts t).1
  have e1 : win1_0.index t (1 : Fin 2) = 0 := (idx_facts t).2.1
  unfold iblk1
  rw [View.read_apply]
  show V c main_v38 _ = V c main_v38 _
  congr 1
  funext a
  apply Fin.ext
  match a with
  | ⟨0, _⟩ => show win1_0.index t 0 * 5000 + 1 * p.val = r.val; rw [e0, hr]; omega
  | ⟨1, _⟩ => show win1_0.index t 1 * 128 + 1 * l.val = l.val; rw [e1]; omega

theorem iblk_1 (c : Dev nD) (t : Fin cfg1.N) (p : Fin 5000) (l : Fin 128) (r : Fin 50000) (hr : r.val = 5000 * t.val + p.val) :
    (iblk1 (F := Ideal) V c 1 t : Vec Ideal S5000x128 .f32) (ix2 p l) = (V c main_v25 : S50000x128.Idx → EReal) (ix2 r l) := by
  have e0 : win1_1.index t (0 : Fin 2) = t.val := (idx_facts t).2.2.1
  have e1 : win1_1.index t (1 : Fin 2) = 0 := (idx_facts t).2.2.2.1
  unfold iblk1
  rw [View.read_apply]
  show V c main_v25 _ = V c main_v25 _
  congr 1
  funext a
  apply Fin.ext
  match a with
  | ⟨0, _⟩ => show win1_1.index t 0 * 5000 + 1 * p.val = r.val; rw [e0, hr]; omega
  | ⟨1, _⟩ => show win1_1.index t 1 * 128 + 1 * l.val = l.val; rw [e1]; omega

theorem iblk_2 (c : Dev nD) (t : Fin cfg1.N) (k l : Fin 128) :
    (iblk1 (F := Ideal) V c 2 t : Vec Ideal S128x128 .f32) (ix2 k l) = (V c main_arg5 : S128x128.Idx → EReal) (ix2 k l) := by
  have e0 : win1_2.index t (0 : Fin 2) = 0 := (idx_facts t).2.2.2.2.1
  have e1 : win1_2.index t (1 : Fin 2) = 0 := (idx_facts t).2.2.2.2.2.1
  unfold iblk1
  rw [View.read_apply]
  show V c main_arg5 _ = V c main_arg5 _
  congr 1
  funext a
  apply Fin.ext
  match a with
  | ⟨0, _⟩ => show win1_2.index t 0 * 128 + 1 * k.val = k.val; rw [e0]; omega
  | ⟨1, _⟩ => show win1_2.index t 1 * 128 + 1 * l.val = l.val; rw [e1]; omega

theorem iblk_3 (c : Dev nD) (t : Fin cfg1.N) (k : Fin 128) :
    (iblk1 (F := Ideal) V c 3 t : Vec Ideal S128 .f32) (ix1 k) = (V c main_arg6 : S128.Idx → EReal) (ix1 k) := by
  have e0 : win1_3.index t (0 : Fin 1) = 0 := (idx_facts t).2.2.2.2.2.2.1
  unfold iblk1
  rw [View.read_apply]
  show V c main_arg6 _ = V c main_arg6 _
  congr 1
  funext a
  apply Fin.ext
  match a with
  | ⟨0, _⟩ => show win1_3.index t 0 * 128 + 1 * k.val = k.val; rw [e0]; omega

theorem iblk_4 (c : Dev nD) (t : Fin cfg1.N) (k l : Fin 128) :
    (iblk1 (F := Ideal) V c 4 t : Vec Ideal S128x128 .f32) (ix2 k l) = (V c main_arg7 : S128x128.Idx → EReal) (ix2 k l) := by
  have e0 : win1_4.index t (0 : Fin 2) = 0 := (idx_facts t).2.2.2.2.2.2.2.1
  have e1 : win1_4.index t (1 : Fin 2) = 0 := (idx_facts t).2.2.2.2.2.2.2.2.1
  unfold iblk1
  rw [View.read_apply]
  show V c main_arg7 _ = V c main_arg7 _
  congr 1
  funext a
  apply Fin.ext
  match a with
  | ⟨0, _⟩ => show win1_4.index t 0 * 128 + 1 * k.val = k.val; rw [e0]; omega
  | ⟨1, _⟩ => show win1_4.index t 1 * 128 + 1 * l.val = l.val; rw [e1]; omega

theorem iblk_5 (c : Dev nD) (t : Fin cfg1.N) (k : Fin 128) :
    (iblk1 (F := Ideal) V c 5 t : Vec Ideal S128 .f32) (ix1 k) = (V c main_arg8 : S128.Idx → EReal) (ix1 k) := by
  have e0 : win1_5.index t (0 : Fin 1) = 0 := (idx_facts t).2.2.2.2.2.2.2.2.2.1
  unfold iblk1
  rw [View.read_apply]
  show V c main_arg8 _ = V c main_arg8 _
  congr 1
  funext a
  apply Fin.ext
  match a with
  | ⟨0, _⟩ => show win1_5.index t 0 * 128 + 1 * k.val = k.val; rw [e0]; omega

theorem iblk_6 (c : Dev nD) (t : Fin cfg1.N) (k : Fin 128) :
    (iblk1 (F := Ideal) V c 6 t : Vec Ideal S128 .f32) (ix1 k) = (V c main_arg9 : S128.Idx → EReal) (ix1 k) := by
  have e0 : win1_6.index t (0 : Fin 1) = 0 := (idx_facts t).2.2.2.2.2.2.2.2.2.2.1
  unfold iblk1
  rw [View.read_apply]
  show V c main_arg9 _ = V c main_arg9 _
  congr 1
  funext a
  apply Fin.ext
  match a with
  | ⟨0, _⟩ => show win1_6.index t 0 * 128 + 1 * k.val = k.val; rw [e0]; omega

/-! ## What a point writes back, the cover, and the array after the run -/

/-- Two `[5000, 128]` blocks agreeing at every pair of coordinates are equal. -/
theorem block_ext {f g : S5000x128.Idx → EReal} (h : ∀ (p : Fin 5000) (q : Fin 128), f (ix2 p q) = g (ix2 p q)) : f = g :=
  funext fun y => by rw [eq_ix2 y]; exact h _ _

/-- WHAT POINT `t` WRITES BACK is block `t` of the specification's array of the call's input arrays. -/
theorem flushed_eq (c : Dev nD) (t : Fin cfg1.N) :
    (dat1 (F := Ideal) V c).flushed 7 t = ((cfg1.win 7).blk t).view.read (Elt Ideal)
      (Cert.Sage.lnorm (Cert.Sage.layer (V c main_v38) (V c main_v25) (V c main_arg5) (V c main_arg6) (V c main_arg7))
        (V c main_arg8) (V c main_arg9)) := by
  have ht : t.val < 10 := lt_of_lt_of_eq t.isLt points_eq
  have e0 : win1_7.index t (0 : Fin 2) = t.val := (idx_facts t).2.2.2.2.2.2.2.2.2.2.2.1
  have e1 : win1_7.index t (1 : Fin 2) = 0 := (idx_facts t).2.2.2.2.2.2.2.2.2.2.2.2
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1]
  refine block_ext fun p q => ?_
  refine (body_apply (iblk1 V c 0 t) (iblk1 V c 1 t) (iblk1 V c 2 t) (iblk1 V c 4 t) (iblk1 V c 3 t) (iblk1 V c 5 t) (iblk1 V c 6 t) p q).trans ?_
  have hr : (5000 * t.val + p.val) < 50000 := by have := p.isLt; omega
  rw [View.read_apply]
  show _ = Cert.Sage.lnorm (Cert.Sage.layer (V c main_v38) (V c main_v25) (V c main_arg5) (V c main_arg6) (V c main_arg7))
      (V c main_arg8) (V c main_arg9) (((cfg1.win 7).blk t).view.emb (ix2 p q))
  rw [spec_apply _ _ _ _ _ _ _ _ ⟨5000 * t.val + p.val, hr⟩ q
    (show win1_7.index t 0 * 5000 + 1 * p.val = 5000 * t.val + p.val by rw [e0]; omega)
    (show win1_7.index t 1 * 128 + 1 * q.val = q.val by rw [e1]; omega)]
  simp only [fun l => iblk_0 V c t p l ⟨5000 * t.val + p.val, hr⟩ rfl, fun l => iblk_1 V c t p l ⟨5000 * t.val + p.val, hr⟩ rfl,
    iblk_2 V c t, iblk_3 V c t, iblk_4 V c t, iblk_5 V c t, iblk_6 V c t]

/-- An index of the output array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v39).slice (win1_7.rect t)).set ↔ _
  rw [View.set_slice_whole, Rect.mem_set_unit]
  exact Iff.rfl

/-- The ten blocks tile the output: row `r` lies in the block of point `r / 5000`. -/
theorem cover (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  have hlt : (i 0).val / 5000 < cfg1.N := by rw [points_eq]; omega
  have e0 : win1_7.index ⟨(i 0).val / 5000, hlt⟩ (0 : Fin 2) = (i 0).val / 5000 := (idx_facts ⟨(i 0).val / 5000, hlt⟩).2.2.2.2.2.2.2.2.2.2.2.1
  have e1 : win1_7.index ⟨(i 0).val / 5000, hlt⟩ (1 : Fin 2) = 0 := (idx_facts ⟨(i 0).val / 5000, hlt⟩).2.2.2.2.2.2.2.2.2.2.2.2
  refine ⟨⟨(i 0).val / 5000, hlt⟩, flush1_7 _, ?_⟩
  rw [mem_blk]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e0]; omega
  | ⟨1, _⟩ =>
    show win1_7.index ⟨(i 0).val / 5000, hlt⟩ (1 : Fin 2) * 128 ≤ (i 1).val
      ∧ (i 1).val < win1_7.index ⟨(i 0).val / 5000, hlt⟩ (1 : Fin 2) * 128 + 128
    rw [e1]; omega

/-- THE OUTPUT ARRAY AFTER THE CALL: the layer norm of the SAGE layer of the call's input arrays, whatever they hold. -/
theorem arr_final (c : Dev nD) :
    (dat1 (F := Ideal) V c).arrAt 7 cfg1.N
      = Cert.Sage.lnorm (Cert.Sage.layer (V c main_v38) (V c main_v25) (V c main_arg5) (V c main_arg6) (V c main_arg7))
          (V c main_arg8) (V c main_arg9) :=
  (dat1 (F := Ideal) V c).arrAt_eq_of_cover 7 _ (fun t _ => flushed_eq V c t) cover

end Cert.KernelIdeal.Region1

end
-- ==== Proof.RefStages.lean ====
/-
  Three stages of the reference program are the specification's whole-array functions.

  The reference computes each SAGE layer as two matrix products against the TRANSPOSED weight matrices, with the bias
  broadcast along the rows added between them and the rectifier (a maximum with the broadcast zero) last.  Read at
  node `r` and channel `j`, a product against a transpose is the inner product with ROW `j` of the weight matrix,
  the broadcast bias is its entry `j`, and the broadcast zero is zero: this is `Cert.Sage.conv` of the two rows of
  node `r`.  The layer norm is read the same way: the row sum from the zero word is the plain sum over the row, the
  divisor is the broadcast word of 128, the square is a product, and the two affine broadcasts read entry `j`.
-/
import proofs.«132489_j89103391523116_1_alg».proof.Proof.Spec
import proofs.«132489_j89103391523116_1_alg».proof.Proof.Gen.ReferenceIdeal.Read

set_option maxRecDepth 16384

noncomputable section

namespace Cert.ReferenceIdeal.Stages

open Cert.ReferenceIdeal Cert.ReferenceIdeal.Read Idealize.ShloMosaic Idealize.ShloMosaic.TcCoe Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 x9 : (⟨S128, .f32⟩ : BufTy).Contents (Elt Ideal))

/-! ## Where the composed index maps read

  At node `r`, channel `j` and summation index `k`: the left factor of a product against a transposed weight matrix is
  read at `(r, k)` and the weight matrix itself at `(j, k)` (the transpose swaps the product's `(k, j)`); a channel
  vector broadcast through a unit row is read at `j`; a row statistic is kept as a unit column, read at `(r, 0)`, and
  its terms are read at `(r, k)`. -/

/-- First layer: the aggregated features are read at `(r, k)`. -/
theorem lidx_v24 (r : Fin 50000) (j k : Fin 128) : lidx_main_v24 (ix2 r j) k = ix2 r k :=
  funext fun a => Fin.ext (by match a with | ⟨0, _⟩ => rfl | ⟨1, _⟩ => rfl)

/-- First layer: through the transpose, the left weight matrix is read at `(j, k)`. -/
theorem widx_v24 (r : Fin 50000) (j k : Fin 128) : idx_main_v23 (ridx_main_v24 (ix2 r j) k) = ix2 j k :=
  funext fun a => Fin.ext (by match a with | ⟨0, _⟩ => rfl | ⟨1, _⟩ => rfl)

/-- First layer: through the unit row, the bias is read at `j`. -/
theorem bidx_v26 (r : Fin 50000) (j : Fin 128) : idx_main_v25 (idx_main_v26 (ix2 r j)) = ix1 j :=
  funext fun a => Fin.ext (by match a with | ⟨0, _⟩ => rfl)

/-- First layer: the node's own features are read at `(r, k)`. -/
theorem lidx_v29 (r : Fin 50000) (j k : Fin 128) : lidx_main_v29 (ix2 r j) k = ix2 r k :=
  funext fun a => Fin.ext (by match a with | ⟨0, _⟩ => rfl | ⟨1, _⟩ => rfl)

/-- First layer: through the transpose, the right weight matrix is read at `(j, k)`. -/
theorem widx_v29 (r : Fin 50000) (j k : Fin 128) : idx_main_v28 (ridx_main_v29 (ix2 r j) k) = ix2 j k :=
  funext fun a => Fin.ext (by match a with | ⟨0, _⟩ => rfl | ⟨1, _⟩ => rfl)

/-- Second layer: the aggregated features are read at `(r, k)`. -/
theorem lidx_v56 (r : Fin 50000) (j k : Fin 128) : lidx_main_v56 (ix2 r j) k = ix2 r k :=
  funext fun a => Fin.ext (by match a with | ⟨0, _⟩ => rfl | ⟨1, _⟩ => rfl)

/-- Second layer: through the transpose, the left weight matrix is read at `(j, k)`. -/
theorem widx_v56 (r : Fin 50000) (j k : Fin 128) : idx_main_v55 (ridx_main_v56 (ix2 r j) k) = ix2 j k :=
  funext fun a => Fin.ext (by match a with | ⟨0, _⟩ => rfl | ⟨1, _⟩ => rfl)

/-- Second layer: through the unit row, the bias is read at `j`. -/
theorem bidx_v58 (r : Fin 50000) (j : Fin 128) : idx_main_v57 (idx_main_v58 (ix2 r j)) = ix1 j :=
  funext fun a => Fin.ext (by match a with | ⟨0, _⟩ => rfl)

/-- Second layer: the node's own features are read at `(r, k)`. -/
theorem lidx_v61 (r : Fin 50000) (j k : Fin 128) : lidx_main_v61 (ix2 r j) k = ix2 r k :=
  funext fun a => Fin.ext (by match a with | ⟨0, _⟩ => rfl | ⟨1, _⟩ => rfl)

/-- Second layer: through the transpose, the right weight matrix is read at `(j, k)`. -/
theorem widx_v61 (r : Fin 50000) (j k : Fin 128) : idx_main_v60 (ridx_main_v61 (ix2 r j) k) = ix2 j k :=
  funext fun a => Fin.ext (by match a with | ⟨0, _⟩ => rfl | ⟨1, _⟩ => rfl)

/-- Layer norm: the terms of the row sum kept at `(r, 0)` are read at `(r, k)`. -/
theorem sidx_v64 (r : Fin 50000) (k : Fin 128) : idx_main_v64 (idx_main_v65 (ix2 r (0 : Fin 1))) k = ix2 r k :=
  funext fun a => Fin.ext (by match a with | ⟨0, _⟩ => rfl | ⟨1, _⟩ => rfl)

/-- Layer norm: the terms of the row sum of squares kept at `(r, 0)` are read at `(r, k)`. -/
theorem sidx_v71 (r : Fin 50000) (k : Fin 128) : idx_main_v71 (idx_main_v72 (ix2 r (0 : Fin 1))) k = ix2 r k :=
  funext fun a => Fin.ext (by match a with | ⟨0, _⟩ => rfl | ⟨1, _⟩ => rfl)

/-- Layer norm: the mean subtracted inside the variance is read from the unit column at `(r, 0)`. -/
theorem cidx_v68 (r : Fin 50000) (k : Fin 128) : idx_main_v68 (ix2 r k) = ix2 r (0 : Fin 1) :=
  funext fun a => Fin.ext (by match a with | ⟨0, _⟩ => rfl | ⟨1, _⟩ => rfl)

/-- Layer norm: the mean subtracted from the entry is read from the unit column at `(r, 0)`. -/
theorem cidx_v75 (r : Fin 50000) (j : Fin 128) : idx_main_v75 (ix2 r j) = ix2 r (0 : Fin 1) :=
  funext fun a => Fin.ext (by match a with | ⟨0, _⟩ => rfl | ⟨1, _⟩ => rfl)

/-- Layer norm: the scaling factor is read from the unit column at `(r, 0)`. -/
theorem cidx_v80 (r : Fin 50000) (j : Fin 128) : idx_main_v80 (ix2 r j) = ix2 r (0 : Fin 1) :=
  funext fun a => Fin.ext (by match a with | ⟨0, _⟩ => rfl | ⟨1, _⟩ => rfl)

/-- Layer norm: through the unit row, the scale is read at `j`. -/
theorem bidx_v83 (r : Fin 50000) (j : Fin 128) : idx_main_v82 (idx_main_v83 (ix2 r j)) = ix1 j :=
  funext fun a => Fin.ext (by match a with | ⟨0, _⟩ => rfl)

/-- Layer norm: through the unit row, the shift is read at `j`. -/
theorem bidx_v86 (r : Fin 50000) (j : Fin 128) : idx_main_v85 (idx_main_v86 (ix2 r j)) = ix1 j :=
  funext fun a => Fin.ext (by match a with | ⟨0, _⟩ => rfl)

/-! ## The row statistics of the layer norm

  Each statistic of row `r` depends on the second layer's output only through the 128 entries of that row. -/

/-- The mean column at node `r` is the mean of row `r`: the row sum from the zero word over the word of 128. -/
theorem mean_at (r : Fin 50000) :
    val_main_v67 (F := Ideal) x0 x1 x2 x3 x4 x5 x6 x7 (ix2 r (0 : Fin 1)) = Cert.Sage.rowMean (fun k => val_main_v63 (F := Ideal) x0 x1 x2 x3 x4 x5 x6 x7 (ix2 r k)) := by
  rw [val_main_v67_apply, val_main_v65_apply, val_main_v64_apply, val_main_cst_10_apply, val_main_v66_apply,
    val_main_cst_11_apply]
  generalize val_main_v63 (F := Ideal) x0 x1 x2 x3 x4 x5 x6 x7 = Y
  unfold Cert.Sage.rowMean
  simp only [sidx_v64, Ideal.hostDivf_def, Ideal.ofBits_def, Ideal.ofBits_zero_f32, zero_add]

/-- The centred entry inside the variance: the entry less the mean of its row. -/
theorem centred_at (r : Fin 50000) (k : Fin 128) :
    val_main_v69 (F := Ideal) x0 x1 x2 x3 x4 x5 x6 x7 (ix2 r k) = val_main_v63 (F := Ideal) x0 x1 x2 x3 x4 x5 x6 x7 (ix2 r k) - Cert.Sage.rowMean (fun k => val_main_v63 (F := Ideal) x0 x1 x2 x3 x4 x5 x6 x7 (ix2 r k)) := by
  rw [val_main_v69_apply, val_main_v68_apply, cidx_v68, mean_at]
  generalize val_main_v63 (F := Ideal) x0 x1 x2 x3 x4 x5 x6 x7 = Y
  simp only [Ideal.subf_def]

/-- The centred entry that is scaled: the same difference, computed a second time by the program. -/
theorem centred_at' (r : Fin 50000) (j : Fin 128) :
    val_main_v76 (F := Ideal) x0 x1 x2 x3 x4 x5 x6 x7 (ix2 r j) = val_main_v63 (F := Ideal) x0 x1 x2 x3 x4 x5 x6 x7 (ix2 r j) - Cert.Sage.rowMean (fun k => val_main_v63 (F := Ideal) x0 x1 x2 x3 x4 x5 x6 x7 (ix2 r k)) := by
  rw [val_main_v76_apply, val_main_v75_apply, cidx_v75, mean_at]
  generalize val_main_v63 (F := Ideal) x0 x1 x2 x3 x4 x5 x6 x7 = Y
  simp only [Ideal.subf_def]

/-- The square of the centred entry is its product with itself. -/
theorem square_at (r : Fin 50000) (k : Fin 128) :
    val_main_v70 (F := Ideal) x0 x1 x2 x3 x4 x5 x6 x7 (ix2 r k)
      = (val_main_v63 (F := Ideal) x0 x1 x2 x3 x4 x5 x6 x7 (ix2 r k) - Cert.Sage.rowMean (fun k => val_main_v63 (F := Ideal) x0 x1 x2 x3 x4 x5 x6 x7 (ix2 r k))) * (val_main_v63 (F := Ideal) x0 x1 x2 x3 x4 x5 x6 x7 (ix2 r k) - Cert.Sage.rowMean (fun k => val_main_v63 (F := Ideal) x0 x1 x2 x3 x4 x5 x6 x7 (ix2 r k))) := by
  rw [val_main_v70_apply, centred_at]
  generalize val_main_v63 (F := Ideal) x0 x1 x2 x3 x4 x5 x6 x7 = Y
  simp only [Ideal.mulf_def]

/-- The variance column at node `r` is the mean of the squared centred entries of row `r`. -/
theorem var_at (r : Fin 50000) :
    val_main_v74 (F := Ideal) x0 x1 x2 x3 x4 x5 x6 x7 (ix2 r (0 : Fin 1))
      = Cert.Sage.rowMean (fun k => (val_main_v63 (F := Ideal) x0 x1 x2 x3 x4 x5 x6 x7 (ix2 r k) - Cert.Sage.rowMean (fun k => val_main_v63 (F := Ideal) x0 x1 x2 x3 x4 x5 x6 x7 (ix2 r k))) * (val_main_v63 (F := Ideal) x0 x1 x2 x3 x4 x5 x6 x7 (ix2 r k) - Cert.Sage.rowMean (fun k => val_main_v63 (F := Ideal) x0 x1 x2 x3 x4 x5 x6 x7 (ix2 r k)))) := by
  rw [val_main_v74_apply, val_main_v72_apply, val_main_v71_apply, val_main_cst_12_apply, val_main_v73_apply,
    val_main_cst_13_apply]
  simp only [sidx_v71, square_at]
  generalize val_main_v63 (F := Ideal) x0 x1 x2 x3 x4 x5 x6 x7 = Y
  generalize Cert.Sage.rowMean (fun k => Y (ix2 r k)) = μ
  unfold Cert.Sage.rowMean
  simp only [Ideal.hostDivf_def, Ideal.ofBits_def, Ideal.ofBits_zero_f32, zero_add]

/-! ## The three stages -/

/-- The first layer's output is the SAGE layer of the first neighbour mean and the node features. -/
theorem hidden_eq : val_main_v31 (F := Ideal) x0 x1 x2 x3 x4
    = Cert.Sage.layer (val_main_v22 (F := Ideal) x0 x1) x0 x2 x3 x4 := by
  funext i
  obtain ⟨r, j, rfl⟩ : ∃ (r : Fin 50000) (j : Fin 128), i = ValueIdx.ix2 r j := ⟨i 0, i 1, ValueIdx.eq_ix2 i⟩
  rw [Cert.Sage.layer_apply]
  unfold Cert.Sage.layerAt Cert.Sage.conv
  -- the stage at (r, j), operation by operation, down to the layer's two operands and the arguments
  rw [val_main_v31_apply, val_main_v30_apply, val_main_v27_apply, val_main_v24_apply, val_main_v29_apply,
    val_main_v26_apply, val_main_v25_apply, val_main_call0_v0_apply, val_main_call0_cst_apply]
  -- the two transposes sit under the sums
  simp only [val_main_v23_apply, val_main_v28_apply]
  generalize val_main_v22 (F := Ideal) x0 x1 = A
  -- where each operand is read, and the exact operations on the extended reals
  simp only [lidx_v24, widx_v24, bidx_v26, lidx_v29, widx_v29, Ideal.maximumf_def, Ideal.addf_def, Ideal.ofBits_def,
    Ideal.ofBits_zero_f32]

/-- The second layer's output is the SAGE layer of the second neighbour mean and the first layer's output. -/
theorem second_eq : val_main_v63 (F := Ideal) x0 x1 x2 x3 x4 x5 x6 x7
    = Cert.Sage.layer (val_main_v54 (F := Ideal) x0 x1 x2 x3 x4) (val_main_v31 (F := Ideal) x0 x1 x2 x3 x4) x5 x6 x7 := by
  funext i
  obtain ⟨r, j, rfl⟩ : ∃ (r : Fin 50000) (j : Fin 128), i = ValueIdx.ix2 r j := ⟨i 0, i 1, ValueIdx.eq_ix2 i⟩
  rw [Cert.Sage.layer_apply]
  unfold Cert.Sage.layerAt Cert.Sage.conv
  -- the stage at (r, j), operation by operation, down to the layer's two operands and the arguments
  rw [val_main_v63_apply, val_main_v62_apply, val_main_v59_apply, val_main_v56_apply, val_main_v61_apply,
    val_main_v58_apply, val_main_v57_apply, val_main_call1_v0_apply, val_main_call1_cst_apply]
  -- the two transposes sit under the sums
  simp only [val_main_v55_apply, val_main_v60_apply]
  generalize val_main_v54 (F := Ideal) x0 x1 x2 x3 x4 = A
  generalize val_main_v31 (F := Ideal) x0 x1 x2 x3 x4 = H
  -- where each operand is read, and the exact operations on the extended reals
  simp only [lidx_v56, widx_v56, bidx_v58, lidx_v61, widx_v61, Ideal.maximumf_def, Ideal.addf_def, Ideal.ofBits_def,
    Ideal.ofBits_zero_f32]

/-- The result is the layer norm of the second layer's output. -/
theorem result_eq : val_main_v87 (F := Ideal) x0 x1 x2 x3 x4 x5 x6 x7 x8 x9
    = Cert.Sage.lnorm (val_main_v63 (F := Ideal) x0 x1 x2 x3 x4 x5 x6 x7) x8 x9 := by
  funext i
  obtain ⟨r, j, rfl⟩ : ∃ (r : Fin 50000) (j : Fin 128), i = ValueIdx.ix2 r j := ⟨i 0, i 1, ValueIdx.eq_ix2 i⟩
  rw [Cert.Sage.lnorm_apply]
  unfold Cert.Sage.lnormAt Cert.Sage.norm
  -- the result at (r, j): the centred entry, times rsqrt of the variance plus the ε word, times the scale, plus the shift
  rw [val_main_v87_apply, val_main_v84_apply, val_main_v81_apply, centred_at', val_main_v80_apply, cidx_v80,
    val_main_v79_apply, val_main_v78_apply, var_at, val_main_v77_apply, val_main_cst_14_apply, val_main_v83_apply,
    val_main_v82_apply, bidx_v83, val_main_v86_apply, val_main_v85_apply, bidx_v86]
  generalize val_main_v63 (F := Ideal) x0 x1 x2 x3 x4 x5 x6 x7 = Y
  simp only [Ideal.addf_def, Ideal.mulf_def, Ideal.hostUnary_rsqrt_def, Ideal.ofBits_def]

end Cert.ReferenceIdeal.Stages

end
-- ==== Proof.lean ====
/-
  The certificate of a two-layer mean-aggregation graph encoder (SAGE convolution, rectifier, layer norm) against
  its jnp reference, over the extended reals.

  The program forms, on the host, the neighbour sums (gather the source rows, scatter-add at the destinations) and
  the degrees, and runs the dense part in two pallas_calls over ten blocks of 5000 nodes: the first computes
  `max (mean · Wlᵀ + b + h · Wrᵀ) 0`, the second the same one layer on followed by the layer norm of each row.  The
  reference does all of it with host operations.  At the ideal instance a change of float format is the identity, a
  matmul into zeros and a dot_general are the same sums, and the two programs apply the same operations in the same
  order with the same literal words, except in one place: the neighbour mean is the sum TIMES `1 / max degree 1` in
  the program and the sum OVER `max degree 1` in the reference.  Off zero a quotient of extended reals is the product
  with the inverse, and `max degree 1` is at least one, so the two means agree for every degree: no finiteness of the
  inputs is used, and the scatter-adds and gathers are never opened.

  The pieces: the specification (one entry of a layer, one entry of the norm, the division law); each call's output
  array as the specification's function of what the call finds; what the host operations leave for each call; the
  program's run with its result named; the reference's stages as the same specification; the two means; and here
  the five claims.  The three frames are the generated ones (the reference's is its generated run with the result
  dropped); the ideal pass rewrote nothing, so there is nothing to preserve.
-/
import proofs.«132489_j89103391523116_1_alg».proof.Defs
import proofs.«132489_j89103391523116_1_alg».proof.Proof.Gen.Kernel
import proofs.«132489_j89103391523116_1_alg».proof.Proof.Gen.Kernel.Skeleton
import proofs.«132489_j89103391523116_1_alg».proof.Proof.Gen.Kernel.Launch
import proofs.«132489_j89103391523116_1_alg».proof.Proof.Gen.Kernel.Points
import proofs.«132489_j89103391523116_1_alg».proof.Proof.Gen.Kernel.Frame
import proofs.«132489_j89103391523116_1_alg».proof.Proof.Gen.KernelIdeal
import proofs.«132489_j89103391523116_1_alg».proof.Proof.Gen.KernelIdeal.Skeleton
import proofs.«132489_j89103391523116_1_alg».proof.Proof.Gen.KernelIdeal.Launch
import proofs.«132489_j89103391523116_1_alg».proof.Proof.Gen.KernelIdeal.Points
import proofs.«132489_j89103391523116_1_alg».proof.Proof.Gen.KernelIdeal.Frame
import proofs.«132489_j89103391523116_1_alg».proof.Proof.Gen.ReferenceIdeal
import proofs.«132489_j89103391523116_1_alg».proof.Proof.Gen.Pre_finite_inputs
import proofs.«132489_j89103391523116_1_alg».proof.Proof.Gen.ReferenceIdeal.Run
import proofs.«132489_j89103391523116_1_alg».proof.Proof.Gen.ReferenceIdeal.Read
import proofs.«132489_j89103391523116_1_alg».proof.Proof.KernelRun
import proofs.«132489_j89103391523116_1_alg».proof.Proof.KernelValue
import proofs.«132489_j89103391523116_1_alg».proof.Proof.RefValue
import proofs.«132489_j89103391523116_1_alg».proof.Proof.Region0
import proofs.«132489_j89103391523116_1_alg».proof.Proof.Region1
import proofs.«132489_j89103391523116_1_alg».proof.Proof.RefStages
import Idealize.ShloMosaic.Adequacy
import Idealize.ShloMosaic.Init

noncomputable section

namespace Cert.Proof

open Idealize.ShloMosaic Idealize.SL.Sem

/-- The word-level program runs and keeps its arguments: the generated frame. -/
theorem frame_kernel : Cert.frame_Kernel := fun m ρ _ => Cert.Kernel.Gen.frame m ρ

/-- So does the idealized program. -/
theorem frame_ideal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the encoder of the (agreeing) arguments in their result buffers. -/
theorem algebraic : Cert.algebraic_KernelIdeal_ReferenceIdeal := by
  intro m ρ m' ρ' _ hagree
  refine ⟨fun c => Cert.KernelIdeal.Encoder.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Encoder.final m ρ c Cert.KernelIdeal.Region0.arr_final Cert.KernelIdeal.Region1.arr_final), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v87_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.ReferenceIdeal.Encoder.result_is_encoder _ _ _ _ _ _ _ _ _ _ (Cert.ReferenceIdeal.Stages.hidden_eq _ _ _ _ _) (Cert.ReferenceIdeal.Stages.second_eq _ _ _ _ _ _ _ _) (Cert.ReferenceIdeal.Stages.result_eq _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
